-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S2x100000 : Shape := ⟨2, ![2, 100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S128x64 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg7
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg8
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x500000 32) (main_arg2 : IVec S2x100000 32) (main_arg3 : IVec S2x100000 32) (main_arg4 : FVec F S128x128 .f32) (main_arg5 : FVec F S128x128 .f32) (main_arg6 : FVec F S128 .f32) (main_arg7 : FVec F S128x64 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_v13 main_v16
-- ==== Kernel.lean ====
abbrev S100000x128 : Shape := ⟨2, ![100000, 128]⟩
abbrev S2x500000 : Shape := ⟨2, ![2, 500000]⟩
abbrev S2x100000 : Shape := ⟨2, ![2, 100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S100000 : Shape := ⟨1, ![100000]⟩
abbrev S500000x1 : Shape := ⟨2, ![500000, 1]⟩
abbrev S500000x128 : Shape := ⟨2, ![500000, 128]⟩
abbrev S100000x1 : Shape := ⟨2, ![100000, 1]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩
abbrev S1x100000 : Shape := ⟨2, ![1, 100000]⟩
abbrev S2000x1 : Shape := ⟨2, ![2000, 1]⟩
abbrev S2000 : Shape := ⟨1, ![2000]⟩

abbrev nBuf : Space → Nat
  | .hbm => 108
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S2x100000, .i32⟩
  | .hbm, ⟨3, _⟩ => ⟨S2x100000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S1x500000, .i32⟩
  | .hbm, ⟨11, _⟩ => ⟨S500000, .i32⟩
  | .hbm, ⟨12, _⟩ => ⟨S1x500000, .i32⟩
  | .hbm, ⟨13, _⟩ => ⟨S500000, .i32⟩
  | .hbm, ⟨14, _⟩ => ⟨S_, .f32⟩
  | .hbm, ⟨15, _⟩ => ⟨S500000, .f32⟩
  | .hbm, ⟨16, _⟩ => ⟨S_, .f32⟩
  | .hbm, ⟨17, _⟩ => ⟨S100000, .f32⟩
  | .hbm, ⟨18, _⟩ => ⟨S500000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S_, .f32⟩
  | .hbm, ⟨34, _⟩ => ⟨S100000x128, .f32⟩
  | .hbm, ⟨35, _⟩ => ⟨S500000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S500000, .i32⟩
  | .hbm, ⟨44, _⟩ => ⟨S500000, .i1⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S500000, .i32⟩
  | .hbm, ⟨49, _⟩ => ⟨S500000x1, .i32⟩
  | .hbm, ⟨50, _⟩ => ⟨S500000x128, .f32⟩
  | .hbm, ⟨51, _⟩ => ⟨S_, .f32⟩
  | .hbm, ⟨52, _⟩ => ⟨S100000x128, .f32⟩
  | .hbm, ⟨53, _⟩ => ⟨S500000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x64, .f32⟩
  | .hbm, ⟨59, _⟩ => ⟨S100000x64, .f32⟩
  | .hbm, ⟨60, _⟩ => ⟨S1x100000, .i32⟩
  | .hbm, ⟨61, _⟩ => ⟨S100000, .i32⟩
  | .hbm, ⟨62, _⟩ => ⟨S1x100000, .i32⟩
  | .hbm, ⟨63, _⟩ => ⟨S100000, .i32⟩
  | .hbm, ⟨64, _⟩ => ⟨S1x100000, .i32⟩
  | .hbm, ⟨65, _⟩ => ⟨S100000, .i32⟩
  | .hbm, ⟨66, _⟩ => ⟨S1x100000, .i32⟩
  | .hbm, ⟨67, _⟩ => ⟨S100000, .i32⟩
  | .hbm, ⟨68, _⟩ => ⟨S_, .i32⟩
  | .hbm, ⟨69, _⟩ => ⟨S100000, .i32⟩
  | .hbm, ⟨70, _⟩ => ⟨S100000, .i1⟩
  | .hbm, ⟨71, _⟩ => ⟨S_, .i32⟩
  | .hbm, ⟨72, _⟩ => ⟨S100000, .i32⟩
  | .hbm, ⟨73, _⟩ => ⟨S100000, .i32⟩
  | .hbm, ⟨74, _⟩ => ⟨S100000, .i32⟩
  | .hbm, ⟨75, _⟩ => ⟨S100000x1, .i32⟩
  | .hbm, ⟨76, _⟩ => ⟨S100000x64, .f32⟩
  | .hbm, ⟨77, _⟩ => ⟨S_, .i32⟩
  | .hbm, ⟨78, _⟩ => ⟨S100000, .i32⟩
  | .hbm, ⟨79, _⟩ => ⟨S100000, .i1⟩
  | .hbm, ⟨80, _⟩ => ⟨S_, .i32⟩
  | .hbm, ⟨81, _⟩ => ⟨S100000, .i32⟩
  | .hbm, ⟨82, _⟩ => ⟨S100000, .i32⟩
  | .hbm, ⟨83, _⟩ => ⟨S100000, .i32⟩
  | .hbm, ⟨84, _⟩ => ⟨S100000x1, .i32⟩
  | .hbm, ⟨85, _⟩ => ⟨S100000x64, .f32⟩
  | .hbm, ⟨86, _⟩ => ⟨S_, .i32⟩
  | .hbm, ⟨87, _⟩ => ⟨S100000, .i32⟩
  | .hbm, ⟨88, _⟩ => ⟨S100000, .i1⟩
  | .hbm, ⟨89, _⟩ => ⟨S_, .i32⟩
  | .hbm, ⟨90, _⟩ => ⟨S100000, .i32⟩
  | .hbm, ⟨91, _⟩ => ⟨S100000, .i32⟩
  | .hbm, ⟨92, _⟩ => ⟨S100000, .i32⟩
  | .hbm, ⟨93, _⟩ => ⟨S100000x1, .i32⟩
  | .hbm, ⟨94, _⟩ => ⟨S100000x64, .f32⟩
  | .hbm, ⟨95, _⟩ => ⟨S_, .i32⟩
  | .hbm, ⟨96, _⟩ => ⟨S100000, .i32⟩
  | .hbm, ⟨97, _⟩ => ⟨S100000, .i1⟩
  | .hbm, ⟨98, _⟩ => ⟨S_, .i32⟩
  | .hbm, ⟨99, _⟩ => ⟨S100000, .i32⟩
  | .hbm, ⟨100, _⟩ => ⟨S100000, .i32⟩
  | .hbm, ⟨101, _⟩ => ⟨S100000, .i32⟩
  | .hbm, ⟨102, _⟩ => ⟨S100000x1, .i32⟩
  | .hbm, ⟨103, _⟩ => ⟨S100000x64, .f32⟩
  | .hbm, ⟨104, _⟩ => ⟨S100000x1, .f32⟩
  | .hbm, ⟨105, _⟩ => ⟨S100000, .f32⟩
  | .hbm, ⟨106, _⟩ => ⟨S100000x1, .f32⟩
  | .hbm, ⟨107, _⟩ => ⟨S100000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x1, .f32⟩
  | .local _ .vmem, ⟨23, _⟩ => ⟨S2000x1, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x1, .f32⟩
  | .local _ .vmem, ⟨29, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_7 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  slices_S2x100000_S1x100000_0_0 : S2x100000.Slices ![0, 0] S1x100000
  shapeCasts_S1x100000_S100000 : S1x100000.ShapeCasts S100000
  slices_S2x100000_S1x100000_1_0 : S2x100000.Slices ![1, 0] S1x100000
  shapeCasts_S2000x64_S2000x64 : S2000x64.ShapeCasts S2000x64
  reduces_S2000x64_S2000 : S2000x64.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S100000x64_S100000x1_S100000x64_1_0_n_n_0_1_164_wf : GatherDims.WF S100000x64 S100000x1 S100000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S2000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v77) S2000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S2x100000 : Shape := ⟨2, ![2, 100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩
abbrev S1x100000 : Shape := ⟨2, ![1, 100000]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x500000, .i32⟩
  | 2 => ⟨S2x100000, .i32⟩
  | 3 => ⟨S2x100000, .i32⟩
  | 4 => ⟨S128x128, .f32⟩
  | 5 => ⟨S128x128, .f32⟩
  | 6 => ⟨S128, .f32⟩
  | 7 => ⟨S128x64, .f32⟩
  | 8 => ⟨S128x64, .f32⟩
  | 9 => ⟨S64, .f32⟩
  | 10 => ⟨S1x500000, .i32⟩
  | 11 => ⟨S500000, .i32⟩
  | 12 => ⟨S1x500000, .i32⟩
  | 13 => ⟨S500000, .i32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x128, .f32⟩
  | 23 => ⟨S_, .f32⟩
  | 24 => ⟨S100000x128, .f32⟩
  | 25 => ⟨S500000x1, .i32⟩
  | 26 => ⟨S100000x128, .f32⟩
  | 27 => ⟨S_, .f32⟩
  | 28 => ⟨S500000, .f32⟩
  | 29 => ⟨S_, .f32⟩
  | 30 => ⟨S100000, .f32⟩
  | 31 => ⟨S500000x1, .i32⟩
  | 32 => ⟨S100000, .f32⟩
  | 33 => ⟨S_, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S_, .f32⟩
  | 59 => ⟨S100000x128, .f32⟩
  | 60 => ⟨S500000x1, .i32⟩
  | 61 => ⟨S100000x128, .f32⟩
  | 62 => ⟨S_, .f32⟩
  | 63 => ⟨S500000, .f32⟩
  | 64 => ⟨S_, .f32⟩
  | 65 => ⟨S100000, .f32⟩
  | 66 => ⟨S500000x1, .i32⟩
  | 67 => ⟨S100000, .f32⟩
  | 68 => ⟨S_, .f32⟩
  | 69 => ⟨S_, .f32⟩
  | 70 => ⟨S100000, .f32⟩
  | 71 => ⟨S100000, .f32⟩
  | 72 => ⟨S100000x1, .f32⟩
  | 73 => ⟨S100000x128, .f32⟩
  | 74 => ⟨S100000x128, .f32⟩
  | 75 => ⟨S100000x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S1x100000, .i32⟩
  | 82 => ⟨S100000, .i32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000x64, .f32⟩
  | 92 => ⟨S1x100000, .i32⟩
  | 93 => ⟨S100000, .i32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000x64, .f32⟩
  | 103 => ⟨S100000x64, .f32⟩
  | 104 => ⟨S_, .f32⟩
  | 105 => ⟨S100000, .f32⟩
  | 106 => ⟨S1x100000, .i32⟩
  | 107 => ⟨S100000, .i32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S100000x64, .f32⟩
  | 117 => ⟨S1x100000, .i32⟩
  | 118 => ⟨S100000, .i32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_15 : Ref sig .tc := ⟨.hbm, 108, rfl⟩
abbrev main_v75 : Ref sig .tc := ⟨.hbm, 109, rfl⟩
abbrev main_v76 : Ref sig .tc := ⟨.hbm, 110, rfl⟩
abbrev main_c_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_17 : Ref sig .tc := ⟨.hbm, 119, rfl⟩
abbrev main_v84 : Ref sig .tc := ⟨.hbm, 120, rfl⟩
abbrev main_v85 : Ref sig .tc := ⟨.hbm, 121, rfl⟩
abbrev main_c_18 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  reducesTo_S100000x64_S100000_d1 : S100000x64.ReducesTo [1] S100000
  h_S_ : 0 < S_.numel
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S100000x1_S100000x64_1_0_n_n_0_1_164_wf : GatherDims.WF S100000x64 S100000x1 S100000x64 [1] [0] [] [0] [] 1 ![1, 64]

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

class Facts : Prop extends Facts₀ where

variable [Facts]
-- ==== Proof.WalkA.lean ====
/-
  The host stretches of the kernel's program as pure functions, and the reference's stages they are.
  Between its four regions the kernel's program runs on the host exactly the reference's own irregular steps: the row of
  source and destination nodes cut out of the edge list, the in-degree by a scatter-add of ones clipped below at 1, the
  neighbour mean (gather the source rows, scatter-add them at the destination rows, divide by the degree), and, for the
  decode, the gather of the two endpoint rows of every scored edge, a negative index wrapped around once. Each function
  below spells one such stretch over what it reads; the equalities say that, fed the reference's own stage values, it is
  the reference's next stage. They hold by reading both sides: the same operations on the same operands.
-/
import proofs.«146579_j69234872812250_1_alg».proof.Proof.Gen.KernelIdeal
import proofs.«146579_j69234872812250_1_alg».proof.Proof.Gen.ReferenceIdeal.Read

set_option maxRecDepth 16384

noncomputable section

namespace Cert.Walk

open Cert.KernelIdeal Cert.KernelIdeal.Gen
open Idealize.ShloMosaic Idealize.ShloMosaic.TcCoe Idealize.SL.Sem

/-! The host stretches of the kernel's program as pure functions of what they read. -/

/-- Row r of an edge-index array as a vector. -/
def srcOf (E : IVec S2x500000 32) : IVec S500000 32 :=
  shapeCast S500000 (extractStridedSlice S1x500000 ![0, 0] E slices_S2x500000_S1x500000_0_0) shapeCasts_S1x500000_S500000
def dstOf (E : IVec S2x500000 32) : IVec S500000 32 :=
  shapeCast S500000 (extractStridedSlice S1x500000 ![1, 0] E slices_S2x500000_S1x500000_1_0) shapeCasts_S1x500000_S500000

/-- The in-degree of every node, clipped below at 1. -/
def degOf (d : IVec S500000 32) : FVec Ideal S100000 .f32 :=
  maximumf (broadcastInDim S100000 ![] bcast_S_S100000 (id (constant (F := Ideal) S_ .f32 0x3F800000#32)))
    (Host.scatterAdd (F := Ideal) scatter_S100000_S500000x1_S500000_n_0_0_1
      (broadcastInDim S100000 ![] bcast_S_S100000 (constant (F := Ideal) S_ .f32 0x00000000#32))
      (broadcastInDim S500000x1 ![0] bcast_S500000_S500000x1_0 d)
      (broadcastInDim S500000 ![] bcast_S_S500000 (constant (F := Ideal) S_ .f32 0x3F800000#32)))

/-- A node index with a negative value wrapped around once. -/
def wrapE (s : IVec S500000 32) : IVec S500000 32 :=
  select (cmpi .slt s (broadcastInDim S500000 ![] bcast_S_S500000 (constantI S_ 32 0#32)))
    (addi s (broadcastInDim S500000 ![] bcast_S_S500000 (constantI S_ 32 100000#32))) s

/-- The mean over every node's in-neighbours of the rows of H. -/
def meanOf (H : FVec Ideal S100000x128 .f32) (s d : IVec S500000 32) (dg : FVec Ideal S100000 .f32) : FVec Ideal S100000x128 .f32 :=
  Host.divf (F := Ideal)
    (Host.scatterAdd (F := Ideal) scatter_S100000x128_S500000x1_S500000x128_1_0_0_1
      (broadcastInDim S100000x128 ![] bcast_S_S100000x128 (constant (F := Ideal) S_ .f32 0x00000000#32))
      (broadcastInDim S500000x1 ![0] bcast_S500000_S500000x1_0 d)
      (Host.gather gather_S100000x128_S500000x1_S500000x128_1_0_n_n_0_1_1128 H
        (broadcastInDim S500000x1 ![0] bcast_S500000_S500000x1_0 (wrapE s))))
    (broadcastInDim S100000x128 ![0, 1] bcast_S100000x1_S100000x128_0_1 (broadcastInDim S100000x1 ![0] bcast_S100000_S100000x1_0 dg))

/-- Row 0 and row 1 of a scored-edge array as vectors. -/
def row0Of (P : IVec S2x100000 32) : IVec S100000 32 :=
  shapeCast S100000 (extractStridedSlice S1x100000 ![0, 0] P slices_S2x100000_S1x100000_0_0) shapeCasts_S1x100000_S100000
def row1Of (P : IVec S2x100000 32) : IVec S100000 32 :=
  shapeCast S100000 (extractStridedSlice S1x100000 ![1, 0] P slices_S2x100000_S1x100000_1_0) shapeCasts_S1x100000_S100000

/-- The rows of Z at the given node indices, a negative index wrapped around once. -/
def endpoints (Z : FVec Ideal S100000x64 .f32) (s : IVec S100000 32) : FVec Ideal S100000x64 .f32 :=
  Host.gather gather_S100000x64_S100000x1_S100000x64_1_0_n_n_0_1_164 Z
    (broadcastInDim S100000x1 ![0] bcast_S100000_S100000x1_0
      (select (cmpi .slt s (broadcastInDim S100000 ![] bcast_S_S100000 (constantI S_ 32 0#32)))
        (addi s (broadcastInDim S100000 ![] bcast_S_S100000 (constantI S_ 32 100000#32))) s))

/-! ## The reference's stages -/

section Stages
open Cert.ReferenceIdeal.Read

variable (x0 : FVec Ideal S100000x128 .f32) (x1 : IVec S2x500000 32) (x2 x3 : IVec S2x100000 32)
  (x4 x5 : FVec Ideal S128x128 .f32) (x6 : FVec Ideal S128 .f32) (x7 x8 : FVec Ideal S128x64 .f32) (x9 : FVec Ideal S64 .f32)

theorem src_eq : srcOf x1 = val_main_v1 (F := Ideal) x1 := rfl

theorem dst_eq : dstOf x1 = val_main_v3 (F := Ideal) x1 := rfl

/-- The clipped in-degree is the reference's, at its first computation of it … -/
theorem deg_eq : degOf (dstOf x1) = val_main_v18 (F := Ideal) x1 := by
  unfold degOf val_main_v18 val_main_call0_v1 val_main_call0_v0 val_main_cst_3 val_main_v17 val_main_v15 val_main_cst_2 val_main_v16 val_main_v14 val_main_cst_1
  rw [dst_eq]
  rfl

/-- … and at its second (the reference computes the degree once per layer, from the same edge list). -/
theorem deg_eq' : degOf (dstOf x1) = val_main_v43 (F := Ideal) x1 := by
  unfold degOf val_main_v43 val_main_call2_v1 val_main_call2_v0 val_main_cst_9 val_main_v42 val_main_v40 val_main_cst_8 val_main_v41 val_main_v39 val_main_cst_7
  rw [dst_eq]
  rfl

/-- The first layer's neighbour means. -/
theorem mean1_eq : meanOf x0 (srcOf x1) (dstOf x1) (degOf (dstOf x1)) = val_main_v21 (F := Ideal) x0 x1 := by
  rw [deg_eq, src_eq, dst_eq]
  unfold meanOf wrapE val_main_v21 val_main_v13 val_main_v20 val_main_v19 val_main_v11 val_main_cst val_main_v12 val_main_v10 val_main_v9 val_main_v8 val_main_v5 val_main_v7 val_main_v4 val_main_v6 val_main_c val_main_c_0
  rfl

/-- The second layer's neighbour means, of the reference's hidden features. -/
theorem mean2_eq : meanOf (val_main_v28 (F := Ideal) x0 x1 x4 x5 x6) (srcOf x1) (dstOf x1) (degOf (dstOf x1))
    = val_main_v46 (F := Ideal) x0 x1 x4 x5 x6 := by
  rw [deg_eq', src_eq, dst_eq]
  unfold meanOf wrapE val_main_v46 val_main_v38 val_main_v45 val_main_v44 val_main_v36 val_main_cst_6 val_main_v37 val_main_v35 val_main_v34 val_main_v33 val_main_v30 val_main_v32 val_main_v29 val_main_v31 val_main_c_4 val_main_c_5
  rfl

/-- The four gathered endpoint arrays, of the reference's node embeddings. -/
theorem pos0_eq : endpoints (val_main_v52 (F := Ideal) x0 x1 x4 x5 x6 x7 x8 x9) (row0Of x2) = val_main_v61 (F := Ideal) x0 x1 x2 x4 x5 x6 x7 x8 x9 := by
  unfold endpoints row0Of val_main_v61 val_main_v60 val_main_v59 val_main_v56 val_main_v58 val_main_v55 val_main_v57 val_main_c_10 val_main_c_11 val_main_v54 val_main_v53
  rfl

theorem pos1_eq : endpoints (val_main_v52 (F := Ideal) x0 x1 x4 x5 x6 x7 x8 x9) (row1Of x2) = val_main_v70 (F := Ideal) x0 x1 x2 x4 x5 x6 x7 x8 x9 := by
  unfold endpoints row1Of val_main_v70 val_main_v69 val_main_v68 val_main_v65 val_main_v67 val_main_v64 val_main_v66 val_main_c_12 val_main_c_13 val_main_v63 val_main_v62
  rfl

theorem neg0_eq : endpoints (val_main_v52 (F := Ideal) x0 x1 x4 x5 x6 x7 x8 x9) (row0Of x3) = val_main_v81 (F := Ideal) x0 x1 x3 x4 x5 x6 x7 x8 x9 := by
  unfold endpoints row0Of val_main_v81 val_main_v80 val_main_v79 val_main_v76 val_main_v78 val_main_v75 val_main_v77 val_main_c_15 val_main_c_16 val_main_v74 val_main_v73
  rfl

theorem neg1_eq : endpoints (val_main_v52 (F := Ideal) x0 x1 x4 x5 x6 x7 x8 x9) (row1Of x3) = val_main_v90 (F := Ideal) x0 x1 x3 x4 x5 x6 x7 x8 x9 := by
  unfold endpoints row1Of val_main_v90 val_main_v89 val_main_v88 val_main_v85 val_main_v87 val_main_v84 val_main_v86 val_main_c_17 val_main_c_18 val_main_v83 val_main_v82
  rfl

end Stages

end Cert.Walk

end
-- ==== Proof.WalkB.lean ====
/-
  What the kernel's buffers hold when its first region is entered. The host stretch before it cuts the source and
  destination rows out of the edge list, counts the clipped in-degrees, forms the first layer's neighbour means of the
  node features, and views the first bias as one row; it writes none of the program's arguments. Each fact below reads
  one buffer off that stretch: the operations that produced it, applied to the launch contents.
-/
import proofs.«146579_j69234872812250_1_alg».proof.Proof.Gen.KernelIdeal.Frame
import proofs.«146579_j69234872812250_1_alg».proof.Proof.WalkA

set_option maxRecDepth 16384

noncomputable section

namespace Cert.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

theorem W3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp <;> rfl

theorem W3_arg9 (c : Dev nD) : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp <;> rfl

theorem W3_v1 (c : Dev nD) : W3 m ρ c (Proc.devRef .tc main_v1) = srcOf (m ((c : Thread nD τ).loc main_arg1)) := by
  show StableHlo.after hostOps0_2 (StableHlo.after hostOps0_1 (StableHlo.after hostOps0 (W0 m ρ c))) (Proc.devRef .tc main_v1) = _
  after_results_simp <;> rfl

theorem W3_v3 (c : Dev nD) : W3 m ρ c (Proc.devRef .tc main_v3) = dstOf (m ((c : Thread nD τ).loc main_arg1)) := by
  show StableHlo.after hostOps0_2 (StableHlo.after hostOps0_1 (StableHlo.after hostOps0 (W0 m ρ c))) (Proc.devRef .tc main_v3) = _
  after_results_simp <;> rfl

theorem W3_v8 (c : Dev nD) : W3 m ρ c (Proc.devRef .tc main_v8) = degOf (dstOf (m ((c : Thread nD τ).loc main_arg1))) := by
  show StableHlo.after hostOps0_2 (StableHlo.after hostOps0_1 (StableHlo.after hostOps0 (W0 m ρ c))) (Proc.devRef .tc main_v8) = _
  after_results_simp <;> rfl

theorem W3_v21 (c : Dev nD) : W3 m ρ c (Proc.devRef .tc main_v21)
    = meanOf (m ((c : Thread nD τ).loc main_arg0)) (srcOf (m ((c : Thread nD τ).loc main_arg1))) (dstOf (m ((c : Thread nD τ).loc main_arg1))) (degOf (dstOf (m ((c : Thread nD τ).loc main_arg1)))) := by
  show StableHlo.after hostOps0_2 (StableHlo.after hostOps0_1 (StableHlo.after hostOps0 (W0 m ρ c))) (Proc.devRef .tc main_v21) = _
  after_results_simp <;> rfl

theorem W3_v22 (c : Dev nD) : W3 m ρ c (Proc.devRef .tc main_v22) = shapeCast S1x128 (m ((c : Thread nD τ).loc main_arg6)) shapeCasts_S128_S1x128 := by
  show StableHlo.after hostOps0_2 (StableHlo.after hostOps0_1 (StableHlo.after hostOps0 (W0 m ρ c))) (Proc.devRef .tc main_v22) = _
  after_results_simp <;> rfl

end Cert.Walk

end
-- ==== Proof.Combine0.lean ====
/-
  The first SAGE layer's combine region, read as a whole array. The region walks the 100000 node rows in 50 blocks of
  2000; at each block it multiplies the block of neighbour means by the whole weight Wl, the block of node features by the
  whole weight Wr, adds the two products and the bias row, and clamps below at zero. So whatever the five operand arrays
  hold when the region is entered, its result array [100000, 128] ends holding, at (r, j),
      max ( (Σ_k mean[r, k] · Wl[k, j]  +  Σ_k x[r, k] · Wr[k, j])  +  b[0, j] ,  0 )
  over the extended reals: block t writes rows 2000·t … 2000·t + 1999 and the 50 blocks tile the array.
-/
import proofs.«146579_j69234872812250_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Entry (r, j) of the result: relu of mean·Wl + x·Wr + b, as sums over the 128 features. -/
def layer (mn x : S100000x128.Idx → EReal) (wl wr : S128x128.Idx → EReal) (b : S1x128.Idx → EReal) : S100000x128.Idx → EReal :=
  fun i => max ((∑ k : Fin 128, mn (ix2 (i 0) k) * wl (ix2 k (i 1)) + ∑ k : Fin 128, x (ix2 (i 0) k) * wr (ix2 k (i 1))) + b (ix2 0 (i 1))) 0

theorem zero_off : (![0, 0] : Fin 2 → Nat) = fun _ => 0 := funext fun a => by fin_cases a <;> rfl

/-! The block product's index maps, axis by axis: the left operand is read at (row of the output, contraction index), the
    right operand at (contraction index, column of the output). -/

theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] × [128,128] block product on a zero accumulator, read at (p, q): the sum over the 128 contraction
    positions of the products of row p of the left operand and column q of the right. -/
theorem matmul_at {φ₁ φ₂ : FTy} (a : FVec Ideal S2000x128 φ₁) (w : FVec Ideal S128x128 φ₂) (p : Fin 2000) (q : Fin 128) :
    FloatOps.matmul dot_S2000x128_S128x128_S2000x128_1_0_0_1_n_n none a w (constant S2000x128 .f32 0x00000000#32) (ix2 p q)
      = ∑ k : Fin 128, a (ix2 p k) * w (ix2 k q) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- One block's payload at (p, q): the two block products summed, plus the bias row's entry q, clamped below at zero. The
    narrowing of the operands changes nothing over the extended reals. -/
theorem payload_apply (x0 x1 : Vec Ideal S2000x128 .f32) (x2 x3 : Vec Ideal S128x128 .f32) (x4 : Vec Ideal S1x128 .f32) (p : Fin 2000) (q : Fin 128) :
    k0_pay1 x0 x1 x2 x3 x4 (ix2 p q)
      = max ((∑ k : Fin 128, x0 (ix2 p k) * x2 (ix2 k q) + ∑ k : Fin 128, x1 (ix2 p k) * x3 (ix2 k q)) + x4 (ix2 0 q)) 0 := by
  unfold k0_pay1
  rw [shapeCast_self, shapeCast_self]
  refine (maximumf_apply _ _ _).trans ?_
  rw [broadcast_apply, addf_apply, addf_apply]
  simp only [matmul]
  rw [matmul_at, matmul_at]
  rw [broadcastTo_apply x4 broadcasts_S1x128_S2000x128 (ix2 p q) (ix2 0 q) (fun a => by
    match a with
    | ⟨0, _⟩ => show 0 = if (1 : Nat) = 1 then 0 else _; rw [if_pos rfl]
    | ⟨1, _⟩ => show q.val = if (128 : Nat) = 1 then 0 else q.val; rw [if_neg (by decide)])]
  simp only [truncf_apply]
  exact congrArg (max _) Ideal.ofBits_zero_f32

/-- The printed index maps, decided over the 50 grid points: the two row-blocked operands and the result sit at block row
    the point's number, block column 0; the two weights and the bias row are one block each, at (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Rows 2000·n … of the two row-blocked arrays, with the whole weights and the whole bias row, give through the payload
    those rows of the layer's result. -/
theorem block_rows (x0 x1 : Vec Ideal S2000x128 .f32) (x2 x3 : Vec Ideal S128x128 .f32) (x4 : Vec Ideal S1x128 .f32)
    (mn x : S100000x128.Idx → EReal) (wl wr : S128x128.Idx → EReal) (b : S1x128.Idx → EReal) (n : Nat)
    (h0 : ∀ (p : Fin 2000) (k : Fin 128) (i : S100000x128.Idx), (i 0).val = n * 2000 + p.val → (i 1).val = k.val → x0 (ix2 p k) = mn i)
    (h1 : ∀ (p : Fin 2000) (k : Fin 128) (i : S100000x128.Idx), (i 0).val = n * 2000 + p.val → (i 1).val = k.val → x1 (ix2 p k) = x i)
    (h2 : ∀ (k q : Fin 128) (i : S128x128.Idx), (i 0).val = k.val → (i 1).val = q.val → x2 (ix2 k q) = wl i)
    (h3 : ∀ (k q : Fin 128) (i : S128x128.Idx), (i 0).val = k.val → (i 1).val = q.val → x3 (ix2 k q) = wr i)
    (h4 : ∀ (q : Fin 128) (i : S1x128.Idx), (i 0).val = 0 → (i 1).val = q.val → x4 (ix2 0 q) = b i)
    (j : S2000x128.Idx) (i : S100000x128.Idx) (hi0 : (i 0).val = n * 2000 + (j 0).val) (hi1 : (i 1).val = (j 1).val) :
    k0_pay1 x0 x1 x2 x3 x4 j = layer mn x wl wr b i := by
  obtain ⟨p, q, rfl⟩ : ∃ (p : Fin 2000) (q : Fin 128), j = ix2 p q := ⟨j 0, j 1, eq_ix2 j⟩
  have hq : (i 1).val = q.val := hi1
  rw [payload_apply]
  unfold layer
  have e0 : ∀ k : Fin 128, x0 (ix2 p k) = mn (ix2 (i 0) k) := fun k => h0 p k (ix2 (i 0) k) hi0 rfl
  have e1 : ∀ k : Fin 128, x1 (ix2 p k) = x (ix2 (i 0) k) := fun k => h1 p k (ix2 (i 0) k) hi0 rfl
  have e2 : ∀ k : Fin 128, x2 (ix2 k q) = wl (ix2 k (i 1)) := fun k => h2 k q (ix2 k (i 1)) rfl hq
  have e3 : ∀ k : Fin 128, x3 (ix2 k q) = wr (ix2 k (i 1)) := fun k => h3 k q (ix2 k (i 1)) rfl hq
  have e4 : x4 (ix2 0 q) = b (ix2 0 (i 1)) := h4 q (ix2 0 (i 1)) rfl hq
  rw [e4]
  refine congrArg (fun z => max (z + b (ix2 0 (i 1))) 0) ?_
  refine congrArg₂ (· + ·) (Finset.sum_congr rfl fun k _ => ?_) (Finset.sum_congr rfl fun k _ => ?_)
  · rw [e0 k, e2 k]
  · rw [e1 k, e3 k]

/-- What point t writes back is block t of the layer's result on the five operand arrays as the region finds them. -/
theorem flushed_eq (c : Dev nD) (t : Fin cfg0.N) :
    (dat0 V c).flushed 5 t = ((cfg0.win 5).blk t).view.read (Elt Ideal)
      (layer (V c main_v21) (V c main_arg0) (V c main_arg4) (V c main_arg5) (V c main_v22)) := by
  show (cfg0.win 5).cut (grid0.coords t) ((dat0 V c).after 5 t) = _
  rw [after0_5]
  unfold out0_5
  rw [View.canon_unit_zero zero_off]
  simp only [View.ld_unit_zero (S := S2000x128) zero_off, View.ld_unit_zero (S := S128x128) zero_off, View.ld_unit_zero (S := S1x128) zero_off]
  obtain ⟨e0, e1, e2, e3, e4, e5, e6, e7, e8, e9, e10, e11⟩ := idx_facts t
  funext j
  refine block_rows (iblk0 V c 0 t) (iblk0 V c 1 t) (iblk0 V c 2 t) (iblk0 V c 3 t) (iblk0 V c 4 t)
    (V c main_v21) (V c main_arg0) (V c main_arg4) (V c main_arg5) (V c main_v22) t.val ?_ ?_ ?_ ?_ ?_ j _ ?_ ?_
  · intro p k i hi0 hi1
    show V c main_v21 (((cfg0.win 0).blk t).view.emb (ix2 p k)) = V c main_v21 i
    refine congrArg _ (funext fun a => Fin.ext ?_)
    match a with
    | ⟨0, _⟩ => show win0_0.index t (0 : Fin 2) * 2000 + 1 * p.val = (i 0).val; omega
    | ⟨1, _⟩ => show win0_0.index t (1 : Fin 2) * 128 + 1 * k.val = (i 1).val; omega
  · intro p k i hi0 hi1
    show V c main_arg0 (((cfg0.win 1).blk t).view.emb (ix2 p k)) = V c main_arg0 i
    refine congrArg _ (funext fun a => Fin.ext ?_)
    match a with
    | ⟨0, _⟩ => show win0_1.index t (0 : Fin 2) * 2000 + 1 * p.val = (i 0).val; omega
    | ⟨1, _⟩ => show win0_1.index t (1 : Fin 2) * 128 + 1 * k.val = (i 1).val; omega
  · intro k q i hi0 hi1
    show V c main_arg4 (((cfg0.win 2).blk t).view.emb (ix2 k q)) = V c main_arg4 i
    refine congrArg _ (funext fun a => Fin.ext ?_)
    match a with
    | ⟨0, _⟩ => show win0_2.index t (0 : Fin 2) * 128 + 1 * k.val = (i 0).val; omega
    | ⟨1, _⟩ => show win0_2.index t (1 : Fin 2) * 128 + 1 * q.val = (i 1).val; omega
  · intro k q i hi0 hi1
    show V c main_arg5 (((cfg0.win 3).blk t).view.emb (ix2 k q)) = V c main_arg5 i
    refine congrArg _ (funext fun a => Fin.ext ?_)
    match a with
    | ⟨0, _⟩ => show win0_3.index t (0 : Fin 2) * 128 + 1 * k.val = (i 0).val; omega
    | ⟨1, _⟩ => show win0_3.index t (1 : Fin 2) * 128 + 1 * q.val = (i 1).val; omega
  · intro q i hi0 hi1
    show V c main_v22 (((cfg0.win 4).blk t).view.emb (ix2 (0 : Fin 1) q)) = V c main_v22 i
    refine congrArg _ (funext fun a => Fin.ext ?_)
    match a with
    | ⟨0, _⟩ => show win0_4.index t (0 : Fin 2) * 1 + 1 * (0 : Fin 1).val = (i 0).val; rw [e8, hi0]; rfl
    | ⟨1, _⟩ => show win0_4.index t (1 : Fin 2) * 128 + 1 * q.val = (i 1).val; omega
  · show win0_5.index t (0 : Fin 2) * 2000 + 1 * (j 0).val = t.val * 2000 + (j 0).val
    omega
  · show win0_5.index t (1 : Fin 2) * 128 + 1 * (j 1).val = (j 1).val
    omega

/-- An index of the result array is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v23).slice (win0_5.rect t)).set ↔ _
  rw [View.set_slice_whole, Rect.mem_set_unit]
  exact Iff.rfl

/-- The 50 blocks tile the result: row r lies in the block of point r / 2000, whatever the column. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 2000 < cfg0.N := by show _ < 50; omega
  obtain ⟨e0, e1, e2, e3, e4, e5, e6, e7, e8, e9, e10, e11⟩ := idx_facts ⟨(i 0).val / 2000, hN⟩
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e10]
    show (i 0).val / 2000 * 2000 ≤ (i 0).val ∧ (i 0).val < (i 0).val / 2000 * 2000 + 2000
    omega
  | ⟨1, _⟩ =>
    show win0_5.index ⟨(i 0).val / 2000, hN⟩ (1 : Fin 2) * 128 ≤ (i 1).val ∧ (i 1).val < win0_5.index ⟨(i 0).val / 2000, hN⟩ (1 : Fin 2) * 128 + 128
    rw [e11]
    omega

/-- The result array after the region. -/
theorem final (c : Dev nD) : (dat0 V c).arrAt 5 cfg0.N
    = layer (V c main_v21) (V c main_arg0) (V c main_arg4) (V c main_arg5) (V c main_v22) :=
  (dat0 V c).arrAt_eq_of_cover 5 _ (fun t _ => flushed_eq V c t) cover

end Cert.KernelIdeal.Combine0

end
-- ==== Proof.Combine1.lean ====
/-
  The second SAGE layer's combine region, read as a whole array. The region walks the 100000 node rows in 50 blocks of
  2000; at each block it multiplies the block of neighbour means by the whole weight Wl, the block of hidden features by the
  whole weight Wr, and adds the two products and the bias row (no clamp in this layer). So whatever the five operand arrays
  hold when the region is entered, its result array [100000, 64] ends holding, at (r, j),
      (Σ_k mean[r, k] · Wl[k, j]  +  Σ_k h[r, k] · Wr[k, j])  +  b[0, j]
  over the extended reals: block t writes rows 2000·t … 2000·t + 1999 and the 50 blocks tile the array.
-/
import proofs.«146579_j69234872812250_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Entry (r, j) of the result: mean·Wl + h·Wr + b, as sums over the 128 hidden features. -/
def layer (mn x : S100000x128.Idx → EReal) (wl wr : S128x64.Idx → EReal) (b : S1x64.Idx → EReal) : S100000x64.Idx → EReal :=
  fun i => (∑ k : Fin 128, mn (ix2 (i 0) k) * wl (ix2 k (i 1)) + ∑ k : Fin 128, x (ix2 (i 0) k) * wr (ix2 k (i 1))) + b (ix2 0 (i 1))

theorem zero_off : (![0, 0] : Fin 2 → Nat) = fun _ => 0 := funext fun a => by fin_cases a <;> rfl

/-! The block product's index maps, axis by axis: the left operand is read at (row of the output, contraction index), the
    right operand at (contraction index, column of the output). -/

theorem lhs_dot_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_dot_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_dot_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_dot_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A [2000,128] × [128,64] block product on a zero accumulator, read at (p, q): the sum over the 128 contraction
    positions of the products of row p of the left operand and column q of the right. -/
theorem matmul_at {φ₁ φ₂ : FTy} (a : FVec Ideal S2000x128 φ₁) (w : FVec Ideal S128x64 φ₂) (p : Fin 2000) (q : Fin 64) :
    FloatOps.matmul dot_S2000x128_S128x64_S2000x64_1_0_0_1_n_n none a w (constant S2000x64 .f32 0x00000000#32) (ix2 p q)
      = ∑ k : Fin 128, a (ix2 p k) * w (ix2 k q) := by
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- One block's payload at (p, q): the two block products summed, plus the bias row's entry q. The narrowing of the
    operands changes nothing over the extended reals. -/
theorem payload_apply (x0 x1 : Vec Ideal S2000x128 .f32) (x2 x3 : Vec Ideal S128x64 .f32) (x4 : Vec Ideal S1x64 .f32) (p : Fin 2000) (q : Fin 64) :
    k1_pay1 x0 x1 x2 x3 x4 (ix2 p q)
      = (∑ k : Fin 128, x0 (ix2 p k) * x2 (ix2 k q) + ∑ k : Fin 128, x1 (ix2 p k) * x3 (ix2 k q)) + x4 (ix2 0 q) := by
  unfold k1_pay1
  rw [shapeCast_self, shapeCast_self, shapeCast_self]
  refine (addf_apply _ _ _).trans ?_
  rw [addf_apply]
  simp only [matmul]
  rw [matmul_at, matmul_at]
  rw [broadcastTo_apply x4 broadcasts_S1x64_S2000x64 (ix2 p q) (ix2 0 q) (fun a => by
    match a with
    | ⟨0, _⟩ => show 0 = if (1 : Nat) = 1 then 0 else _; rw [if_pos rfl]
    | ⟨1, _⟩ => show q.val = if (64 : Nat) = 1 then 0 else q.val; rw [if_neg (by decide)])]
  simp only [truncf_apply]

/-- The printed index maps, decided over the 50 grid points: the two row-blocked operands and the result sit at block row
    the point's number, block column 0; the two weights and the bias row are one block each, at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Rows 2000·n … of the two row-blocked arrays, with the whole weights and the whole bias row, give through the payload
    those rows of the layer's result. -/
theorem block_rows (x0 x1 : Vec Ideal S2000x128 .f32) (x2 x3 : Vec Ideal S128x64 .f32) (x4 : Vec Ideal S1x64 .f32)
    (mn x : S100000x128.Idx → EReal) (wl wr : S128x64.Idx → EReal) (b : S1x64.Idx → EReal) (n : Nat)
    (h0 : ∀ (p : Fin 2000) (k : Fin 128) (i : S100000x128.Idx), (i 0).val = n * 2000 + p.val → (i 1).val = k.val → x0 (ix2 p k) = mn i)
    (h1 : ∀ (p : Fin 2000) (k : Fin 128) (i : S100000x128.Idx), (i 0).val = n * 2000 + p.val → (i 1).val = k.val → x1 (ix2 p k) = x i)
    (h2 : ∀ (k : Fin 128) (q : Fin 64) (i : S128x64.Idx), (i 0).val = k.val → (i 1).val = q.val → x2 (ix2 k q) = wl i)
    (h3 : ∀ (k : Fin 128) (q : Fin 64) (i : S128x64.Idx), (i 0).val = k.val → (i 1).val = q.val → x3 (ix2 k q) = wr i)
    (h4 : ∀ (q : Fin 64) (i : S1x64.Idx), (i 0).val = 0 → (i 1).val = q.val → x4 (ix2 0 q) = b i)
    (j : S2000x64.Idx) (i : S100000x64.Idx) (hi0 : (i 0).val = n * 2000 + (j 0).val) (hi1 : (i 1).val = (j 1).val) :
    k1_pay1 x0 x1 x2 x3 x4 j = layer mn x wl wr b i := by
  obtain ⟨p, q, rfl⟩ : ∃ (p : Fin 2000) (q : Fin 64), j = ix2 p q := ⟨j 0, j 1, eq_ix2 j⟩
  have hq : (i 1).val = q.val := hi1
  rw [payload_apply]
  unfold layer
  have e0 : ∀ k : Fin 128, x0 (ix2 p k) = mn (ix2 (i 0) k) := fun k => h0 p k (ix2 (i 0) k) hi0 rfl
  have e1 : ∀ k : Fin 128, x1 (ix2 p k) = x (ix2 (i 0) k) := fun k => h1 p k (ix2 (i 0) k) hi0 rfl
  have e2 : ∀ k : Fin 128, x2 (ix2 k q) = wl (ix2 k (i 1)) := fun k => h2 k q (ix2 k (i 1)) rfl hq
  have e3 : ∀ k : Fin 128, x3 (ix2 k q) = wr (ix2 k (i 1)) := fun k => h3 k q (ix2 k (i 1)) rfl hq
  have e4 : x4 (ix2 0 q) = b (ix2 0 (i 1)) := h4 q (ix2 0 (i 1)) rfl hq
  rw [e4]
  refine congrArg (fun z => z + b (ix2 0 (i 1))) ?_
  refine congrArg₂ (· + ·) (Finset.sum_congr rfl fun k _ => ?_) (Finset.sum_congr rfl fun k _ => ?_)
  · rw [e0 k, e2 k]
  · rw [e1 k, e3 k]

/-- What point t writes back is block t of the layer's result on the five operand arrays as the region finds them. -/
theorem flushed_eq (c : Dev nD) (t : Fin cfg1.N) :
    (dat1 V c).flushed 5 t = ((cfg1.win 5).blk t).view.read (Elt Ideal)
      (layer (V c main_v36) (V c main_v23) (V c main_arg7) (V c main_arg8) (V c main_v37)) := by
  show (cfg1.win 5).cut (grid1.coords t) ((dat1 V c).after 5 t) = _
  rw [after1_5]
  unfold out1_5
  rw [View.canon_unit_zero zero_off]
  simp only [View.ld_unit_zero (S := S2000x128) zero_off, View.ld_unit_zero (S := S128x64) zero_off, View.ld_unit_zero (S := S1x64) zero_off]
  obtain ⟨e0, e1, e2, e3, e4, e5, e6, e7, e8, e9, e10, e11⟩ := idx_facts t
  funext j
  refine block_rows (iblk1 V c 0 t) (iblk1 V c 1 t) (iblk1 V c 2 t) (iblk1 V c 3 t) (iblk1 V c 4 t)
    (V c main_v36) (V c main_v23) (V c main_arg7) (V c main_arg8) (V c main_v37) t.val ?_ ?_ ?_ ?_ ?_ j _ ?_ ?_
  · intro p k i hi0 hi1
    show V c main_v36 (((cfg1.win 0).blk t).view.emb (ix2 p k)) = V c main_v36 i
    refine congrArg _ (funext fun a => Fin.ext ?_)
    match a with
    | ⟨0, _⟩ => show win1_0.index t (0 : Fin 2) * 2000 + 1 * p.val = (i 0).val; omega
    | ⟨1, _⟩ => show win1_0.index t (1 : Fin 2) * 128 + 1 * k.val = (i 1).val; omega
  · intro p k i hi0 hi1
    show V c main_v23 (((cfg1.win 1).blk t).view.emb (ix2 p k)) = V c main_v23 i
    refine congrArg _ (funext fun a => Fin.ext ?_)
    match a with
    | ⟨0, _⟩ => show win1_1.index t (0 : Fin 2) * 2000 + 1 * p.val = (i 0).val; omega
    | ⟨1, _⟩ => show win1_1.index t (1 : Fin 2) * 128 + 1 * k.val = (i 1).val; omega
  · intro k q i hi0 hi1
    show V c main_arg7 (((cfg1.win 2).blk t).view.emb (ix2 k q)) = V c main_arg7 i
    refine congrArg _ (funext fun a => Fin.ext ?_)
    match a with
    | ⟨0, _⟩ => show win1_2.index t (0 : Fin 2) * 128 + 1 * k.val = (i 0).val; omega
    | ⟨1, _⟩ => show win1_2.index t (1 : Fin 2) * 64 + 1 * q.val = (i 1).val; omega
  · intro k q i hi0 hi1
    show V c main_arg8 (((cfg1.win 3).blk t).view.emb (ix2 k q)) = V c main_arg8 i
    refine congrArg _ (funext fun a => Fin.ext ?_)
    match a with
    | ⟨0, _⟩ => show win1_3.index t (0 : Fin 2) * 128 + 1 * k.val = (i 0).val; omega
    | ⟨1, _⟩ => show win1_3.index t (1 : Fin 2) * 64 + 1 * q.val = (i 1).val; omega
  · intro q i hi0 hi1
    show V c main_v37 (((cfg1.win 4).blk t).view.emb (ix2 (0 : Fin 1) q)) = V c main_v37 i
    refine congrArg _ (funext fun a => Fin.ext ?_)
    match a with
    | ⟨0, _⟩ => show win1_4.index t (0 : Fin 2) * 1 + 1 * (0 : Fin 1).val = (i 0).val; rw [e8, hi0]; rfl
    | ⟨1, _⟩ => show win1_4.index t (1 : Fin 2) * 64 + 1 * q.val = (i 1).val; omega
  · show win1_5.index t (0 : Fin 2) * 2000 + 1 * (j 0).val = t.val * 2000 + (j 0).val
    omega
  · show win1_5.index t (1 : Fin 2) * 64 + 1 * (j 1).val = (j 1).val
    omega

/-- An index of the result array is in point t's block iff each coordinate is in the block's range on its axis. -/
theorem mem_blk (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v38).slice (win1_5.rect t)).set ↔ _
  rw [View.set_slice_whole, Rect.mem_set_unit]
  exact Iff.rfl

/-- The 50 blocks tile the result: row r lies in the block of point r / 2000, whatever the column. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 2000 < cfg1.N := by show _ < 50; omega
  obtain ⟨e0, e1, e2, e3, e4, e5, e6, e7, e8, e9, e10, e11⟩ := idx_facts ⟨(i 0).val / 2000, hN⟩
  refine ⟨⟨(i 0).val / 2000, hN⟩, flush1_5 _, ?_⟩
  rw [mem_blk]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e10]
    show (i 0).val / 2000 * 2000 ≤ (i 0).val ∧ (i 0).val < (i 0).val / 2000 * 2000 + 2000
    omega
  | ⟨1, _⟩ =>
    show win1_5.index ⟨(i 0).val / 2000, hN⟩ (1 : Fin 2) * 64 ≤ (i 1).val ∧ (i 1).val < win1_5.index ⟨(i 0).val / 2000, hN⟩ (1 : Fin 2) * 64 + 64
    rw [e11]
    omega

/-- The result array after the region. -/
theorem final (c : Dev nD) : (dat1 V c).arrAt 5 cfg1.N
    = layer (V c main_v36) (V c main_v23) (V c main_arg7) (V c main_arg8) (V c main_v37) :=
  (dat1 V c).arrAt_eq_of_cover 5 _ (fun t _ => flushed_eq V c t) cover

end Cert.KernelIdeal.Combine1

end
-- ==== Proof.Decode2.lean ====
/-
  The link-decode region for the positive edges, read as a whole array. The region walks the 100000 edge rows in 50 blocks
  of 2000; at each block it multiplies the two gathered endpoint rows entry by entry and sums the 64 products of every
  row. So whatever the two operand arrays `a` and `b` hold when the region is entered, its result array [100000, 1] ends
  holding, at row r, the dot product  Σ_k a[r, k] · b[r, k]  over the extended reals: block t writes rows 2000·t … 2000·t + 1999
  and the 50 blocks tile the array.
-/
import proofs.«146579_j69234872812250_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Decode2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Row r of the result: the dot product of row r of the two operands. -/
def rowDots (a b : S100000x64.Idx → EReal) : S100000x1.Idx → EReal :=
  fun i => ∑ k : Fin 64, a (ix2 (i 0) k) * b (ix2 (i 0) k)

theorem zero_off : (![0, 0] : Fin 2 → Nat) = fun _ => 0 := funext fun a => by fin_cases a <;> rfl

/-- One block's payload at row p: the sum over the 64 lanes of the products of the two loaded blocks. -/
theorem payload_apply (x0 x1 : Vec Ideal S2000x64 .f32) (p : Fin 2000) (q : Fin 1) :
    k2_pay1 x0 x1 (ix2 p q) = ∑ k : Fin 64, x0 (ix2 p k) * x1 (ix2 p k) := by
  unfold k2_pay1
  refine (shapeCast_apply _ shapeCasts_S2000_S2000x1 (ix2 p q) (ix1 p) ?_).trans ?_
  · rw [Shape.rowMajor_val_one, Shape.rowMajor_val_two]
    have hq : q.val = 0 := by omega
    show p.val = p.val * 1 + q.val
    omega
  refine (Ideal.multiReduction_add_single _ 0x00000000#32 reduces_S2000x64_S2000 (.inl rfl) rfl (ix1 p)).trans ?_
  refine Finset.sum_congr rfl fun k _ => ?_
  rw [shapeCast_self, shapeCast_self]
  have e : reduces_S2000x64_S2000.lift (ix1 p) k = ix2 p k := funext fun a => Fin.ext (by
    match a with
    | ⟨0, _⟩ => rfl
    | ⟨1, _⟩ => rfl)
  show x0 _ * x1 _ = _
  rw [e]
  rfl

/-- The printed index maps, decided over the 50 grid points: every window's block row is the point's number, its block
    column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- A block of rows 2000·n … of two arrays, multiplied and lane-summed, is those rows of the arrays' row dot products. -/
theorem block_rows (x0 x1 : Vec Ideal S2000x64 .f32) (a b : S100000x64.Idx → EReal) (n : Nat)
    (h0 : ∀ (p : Fin 2000) (k : Fin 64) (i : S100000x64.Idx), (i 0).val = n * 2000 + p.val → (i 1).val = k.val → x0 (ix2 p k) = a i)
    (h1 : ∀ (p : Fin 2000) (k : Fin 64) (i : S100000x64.Idx), (i 0).val = n * 2000 + p.val → (i 1).val = k.val → x1 (ix2 p k) = b i)
    (j : S2000x1.Idx) (i : S100000x1.Idx) (hi : (i 0).val = n * 2000 + (j 0).val) :
    k2_pay1 x0 x1 j = rowDots a b i := by
  obtain ⟨p, q, rfl⟩ : ∃ (p : Fin 2000) (q : Fin 1), j = ix2 p q := ⟨j 0, j 1, eq_ix2 j⟩
  rw [payload_apply]
  unfold rowDots
  refine Finset.sum_congr rfl fun k _ => ?_
  rw [h0 p k (ix2 (i 0) k) hi rfl, h1 p k (ix2 (i 0) k) hi rfl]

/-- What point t writes back is block t of the row dot products of the two operand arrays as the region finds them. -/
theorem flushed_eq (c : Dev nD) (t : Fin cfg2.N) :
    (dat2 V c).flushed 2 t = ((cfg2.win 2).blk t).view.read (Elt Ideal) (rowDots (V c main_v53) (V c main_v60)) := by
  show (cfg2.win 2).cut (grid2.coords t) ((dat2 V c).after 2 t) = _
  rw [after2_2]
  unfold out2_2
  rw [View.canon_unit_zero zero_off]
  simp only [View.ld_unit_zero (S := S2000x64) zero_off]
  obtain ⟨e0, e1, e2, e3, e4, e5⟩ := idx_facts t
  funext j
  refine block_rows (iblk2 V c 0 t) (iblk2 V c 1 t) (V c main_v53) (V c main_v60) t.val ?_ ?_ j _ ?_
  · intro p k i hi0 hi1
    show V c main_v53 (((cfg2.win 0).blk t).view.emb (ix2 p k)) = V c main_v53 i
    refine congrArg _ (funext fun a => Fin.ext ?_)
    match a with
    | ⟨0, _⟩ => show win2_0.index t (0 : Fin 2) * 2000 + 1 * p.val = (i 0).val; omega
    | ⟨1, _⟩ => show win2_0.index t (1 : Fin 2) * 64 + 1 * k.val = (i 1).val; omega
  · intro p k i hi0 hi1
    show V c main_v60 (((cfg2.win 1).blk t).view.emb (ix2 p k)) = V c main_v60 i
    refine congrArg _ (funext fun a => Fin.ext ?_)
    match a with
    | ⟨0, _⟩ => show win2_1.index t (0 : Fin 2) * 2000 + 1 * p.val = (i 0).val; omega
    | ⟨1, _⟩ => show win2_1.index t (1 : Fin 2) * 64 + 1 * k.val = (i 1).val; omega
  · show win2_2.index t (0 : Fin 2) * 2000 + 1 * (j 0).val = t.val * 2000 + (j 0).val
    omega

/-- An index of the result array is in point t's block iff each coordinate is in the block's range on its axis. -/
theorem mem_blk (t : Fin cfg2.N) (i : S100000x1.Idx) :
    i ∈ ((cfg2.win 2).blk t).view.set ↔ ∀ a : Fin 2, win2_2.index t a * S2000x1.size a ≤ (i a).val ∧ (i a).val < win2_2.index t a * S2000x1.size a + S2000x1.size a := by
  show i ∈ ((View.whole main_v75).slice (win2_2.rect t)).set ↔ _
  rw [View.set_slice_whole, Rect.mem_set_unit]
  exact Iff.rfl

/-- The 50 blocks tile the result: row r lies in the block of point r / 2000. -/
theorem cover (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  have hN : (i 0).val / 2000 < cfg2.N := by show _ < 50; omega
  obtain ⟨e0, e1, e2, e3, e4, e5⟩ := idx_facts ⟨(i 0).val / 2000, hN⟩
  refine ⟨⟨(i 0).val / 2000, hN⟩, flush2_2 _, ?_⟩
  rw [mem_blk]
  intro a
  match a with
  | ⟨0, _⟩ =>
    show win2_2.index ⟨(i 0).val / 2000, hN⟩ (0 : Fin 2) * 2000 ≤ (i 0).val ∧ (i 0).val < win2_2.index ⟨(i 0).val / 2000, hN⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, hN⟩ (1 : Fin 2) * 1 ≤ (i 1).val ∧ (i 1).val < win2_2.index ⟨(i 0).val / 2000, hN⟩ (1 : Fin 2) * 1 + 1
    omega

/-- The result array after the region: row r holds the dot product of row r of the two operand arrays. -/
theorem final (c : Dev nD) : (dat2 V c).arrAt 2 cfg2.N = rowDots (V c main_v53) (V c main_v60) :=
  (dat2 V c).arrAt_eq_of_cover 2 _ (fun t _ => flushed_eq V c t) cover

end Cert.KernelIdeal.Decode2

end
-- ==== Proof.Decode3.lean ====
/-
  The link-decode region for the negative edges, read as a whole array. The region walks the 100000 edge rows in 50 blocks
  of 2000; at each block it multiplies the two gathered endpoint rows entry by entry and sums the 64 products of every
  row. So whatever the two operand arrays `a` and `b` hold when the region is entered, its result array [100000, 1] ends
  holding, at row r, the dot product  Σ_k a[r, k] · b[r, k]  over the extended reals: block t writes rows 2000·t … 2000·t + 1999
  and the 50 blocks tile the array.
-/
import proofs.«146579_j69234872812250_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Decode3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Row r of the result: the dot product of row r of the two operands. -/
def rowDots (a b : S100000x64.Idx → EReal) : S100000x1.Idx → EReal :=
  fun i => ∑ k : Fin 64, a (ix2 (i 0) k) * b (ix2 (i 0) k)

theorem zero_off : (![0, 0] : Fin 2 → Nat) = fun _ => 0 := funext fun a => by fin_cases a <;> rfl

/-- One block's payload at row p: the sum over the 64 lanes of the products of the two loaded blocks. -/
theorem payload_apply (x0 x1 : Vec Ideal S2000x64 .f32) (p : Fin 2000) (q : Fin 1) :
    k3_pay1 x0 x1 (ix2 p q) = ∑ k : Fin 64, x0 (ix2 p k) * x1 (ix2 p k) := by
  unfold k3_pay1
  refine (shapeCast_apply _ shapeCasts_S2000_S2000x1 (ix2 p q) (ix1 p) ?_).trans ?_
  · rw [Shape.rowMajor_val_one, Shape.rowMajor_val_two]
    have hq : q.val = 0 := by omega
    show p.val = p.val * 1 + q.val
    omega
  refine (Ideal.multiReduction_add_single _ 0x00000000#32 reduces_S2000x64_S2000 (.inl rfl) rfl (ix1 p)).trans ?_
  refine Finset.sum_congr rfl fun k _ => ?_
  rw [shapeCast_self, shapeCast_self]
  have e : reduces_S2000x64_S2000.lift (ix1 p) k = ix2 p k := funext fun a => Fin.ext (by
    match a with
    | ⟨0, _⟩ => rfl
    | ⟨1, _⟩ => rfl)
  show x0 _ * x1 _ = _
  rw [e]
  rfl

/-- The printed index maps, decided over the 50 grid points: every window's block row is the point's number, its block
    column 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- A block of rows 2000·n … of two arrays, multiplied and lane-summed, is those rows of the arrays' row dot products. -/
theorem block_rows (x0 x1 : Vec Ideal S2000x64 .f32) (a b : S100000x64.Idx → EReal) (n : Nat)
    (h0 : ∀ (p : Fin 2000) (k : Fin 64) (i : S100000x64.Idx), (i 0).val = n * 2000 + p.val → (i 1).val = k.val → x0 (ix2 p k) = a i)
    (h1 : ∀ (p : Fin 2000) (k : Fin 64) (i : S100000x64.Idx), (i 0).val = n * 2000 + p.val → (i 1).val = k.val → x1 (ix2 p k) = b i)
    (j : S2000x1.Idx) (i : S100000x1.Idx) (hi : (i 0).val = n * 2000 + (j 0).val) :
    k3_pay1 x0 x1 j = rowDots a b i := by
  obtain ⟨p, q, rfl⟩ : ∃ (p : Fin 2000) (q : Fin 1), j = ix2 p q := ⟨j 0, j 1, eq_ix2 j⟩
  rw [payload_apply]
  unfold rowDots
  refine Finset.sum_congr rfl fun k _ => ?_
  rw [h0 p k (ix2 (i 0) k) hi rfl, h1 p k (ix2 (i 0) k) hi rfl]

/-- What point t writes back is block t of the row dot products of the two operand arrays as the region finds them. -/
theorem flushed_eq (c : Dev nD) (t : Fin cfg3.N) :
    (dat3 V c).flushed 2 t = ((cfg3.win 2).blk t).view.read (Elt Ideal) (rowDots (V c main_v67) (V c main_v74)) := by
  show (cfg3.win 2).cut (grid3.coords t) ((dat3 V c).after 2 t) = _
  rw [after3_2]
  unfold out3_2
  rw [View.canon_unit_zero zero_off]
  simp only [View.ld_unit_zero (S := S2000x64) zero_off]
  obtain ⟨e0, e1, e2, e3, e4, e5⟩ := idx_facts t
  funext j
  refine block_rows (iblk3 V c 0 t) (iblk3 V c 1 t) (V c main_v67) (V c main_v74) t.val ?_ ?_ j _ ?_
  · intro p k i hi0 hi1
    show V c main_v67 (((cfg3.win 0).blk t).view.emb (ix2 p k)) = V c main_v67 i
    refine congrArg _ (funext fun a => Fin.ext ?_)
    match a with
    | ⟨0, _⟩ => show win3_0.index t (0 : Fin 2) * 2000 + 1 * p.val = (i 0).val; omega
    | ⟨1, _⟩ => show win3_0.index t (1 : Fin 2) * 64 + 1 * k.val = (i 1).val; omega
  · intro p k i hi0 hi1
    show V c main_v74 (((cfg3.win 1).blk t).view.emb (ix2 p k)) = V c main_v74 i
    refine congrArg _ (funext fun a => Fin.ext ?_)
    match a with
    | ⟨0, _⟩ => show win3_1.index t (0 : Fin 2) * 2000 + 1 * p.val = (i 0).val; omega
    | ⟨1, _⟩ => show win3_1.index t (1 : Fin 2) * 64 + 1 * k.val = (i 1).val; omega
  · show win3_2.index t (0 : Fin 2) * 2000 + 1 * (j 0).val = t.val * 2000 + (j 0).val
    omega

/-- An index of the result array is in point t's block iff each coordinate is in the block's range on its axis. -/
theorem mem_blk (t : Fin cfg3.N) (i : S100000x1.Idx) :
    i ∈ ((cfg3.win 2).blk t).view.set ↔ ∀ a : Fin 2, win3_2.index t a * S2000x1.size a ≤ (i a).val ∧ (i a).val < win3_2.index t a * S2000x1.size a + S2000x1.size a := by
  show i ∈ ((View.whole main_v77).slice (win3_2.rect t)).set ↔ _
  rw [View.set_slice_whole, Rect.mem_set_unit]
  exact Iff.rfl

/-- The 50 blocks tile the result: row r lies in the block of point r / 2000. -/
theorem cover (i : S100000x1.Idx) : ∃ t : Fin cfg3.N, (cfg3.win 2).flush t = true ∧ i ∈ ((cfg3.win 2).blk t).view.set := by
  have hi0 : (i 0).val < 100000 := (i 0).isLt
  have hi1 : (i 1).val < 1 := (i 1).isLt
  have hN : (i 0).val / 2000 < cfg3.N := by show _ < 50; omega
  obtain ⟨e0, e1, e2, e3, e4, e5⟩ := idx_facts ⟨(i 0).val / 2000, hN⟩
  refine ⟨⟨(i 0).val / 2000, hN⟩, flush3_2 _, ?_⟩
  rw [mem_blk]
  intro a
  match a with
  | ⟨0, _⟩ =>
    show win3_2.index ⟨(i 0).val / 2000, hN⟩ (0 : Fin 2) * 2000 ≤ (i 0).val ∧ (i 0).val < win3_2.index ⟨(i 0).val / 2000, hN⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, hN⟩ (1 : Fin 2) * 1 ≤ (i 1).val ∧ (i 1).val < win3_2.index ⟨(i 0).val / 2000, hN⟩ (1 : Fin 2) * 1 + 1
    omega

/-- The result array after the region: row r holds the dot product of row r of the two operand arrays. -/
theorem final (c : Dev nD) : (dat3 V c).arrAt 2 cfg3.N = rowDots (V c main_v67) (V c main_v74) :=
  (dat3 V c).arrAt_eq_of_cover 2 _ (fun t _ => flushed_eq V c t) cover

end Cert.KernelIdeal.Decode3

end
-- ==== Proof.RefBridge.lean ====
/-
  The reference's stages against the regions' whole-array functions. The reference computes each SAGE layer on the host as
  dot_general + dot_general + broadcast bias (+ maximum with 0), and each link score as a host sum over axis 1 of the
  entrywise product of two gathered arrays. Read at an index, at the extended reals, a dot_general is the sum over the
  contracted axis of the products, a host sum is its initial value 0 plus the sum over the reduced axis, a broadcast reads
  its operand at the kept coordinates: so each stage is, entry by entry, the function the matching kernel region leaves.
  No law of the extended reals beyond 0 + s = s is used: both sides add and multiply the same entries in the same order.
-/
import proofs.«146579_j69234872812250_1_alg».proof.Proof.Gen.ReferenceIdeal.Read
import proofs.«146579_j69234872812250_1_alg».proof.Proof.Combine0
import proofs.«146579_j69234872812250_1_alg».proof.Proof.Combine1
import proofs.«146579_j69234872812250_1_alg».proof.Proof.Decode2
import proofs.«146579_j69234872812250_1_alg».proof.Proof.Decode3

set_option maxRecDepth 16384

noncomputable section

namespace Cert.Bridge

open Cert.ReferenceIdeal Cert.ReferenceIdeal.Read
open Idealize.ShloMosaic Idealize.ShloMosaic.TcCoe Idealize.SL.Sem Idealize.ShloMosaic.ValueIdx

variable (x0 : (⟨S100000x128, .f32⟩ : BufTy).Contents (Elt Ideal)) (x1 : (⟨S2x500000, .i32⟩ : BufTy).Contents (Elt Ideal))
  (x2 x3 : (⟨S2x100000, .i32⟩ : BufTy).Contents (Elt Ideal))
  (x4 x5 : (⟨S128x128, .f32⟩ : BufTy).Contents (Elt Ideal)) (x6 : (⟨S128, .f32⟩ : BufTy).Contents (Elt Ideal))
  (x7 x8 : (⟨S128x64, .f32⟩ : BufTy).Contents (Elt Ideal)) (x9 : (⟨S64, .f32⟩ : BufTy).Contents (Elt Ideal))

/-- The positive region's row dot products, viewed as a vector, read at row r. -/
theorem rowDots2_cast (a b : S100000x64.Idx → EReal) (h : Cert.KernelIdeal.S100000x1.ShapeCasts Cert.KernelIdeal.S100000) (r : Fin 100000) :
    shapeCast Cert.KernelIdeal.S100000 (Cert.KernelIdeal.Decode2.rowDots a b) h (ix1 r) = ∑ k : Fin 64, a (ix2 r k) * b (ix2 r k) := by
  refine (shapeCast_apply _ h (ix1 r) (ix2 r 0) ?_).trans rfl
  rw [Shape.rowMajor_val_one, Shape.rowMajor_val_two]
  show r.val * 1 + 0 = r.val
  omega

/-- The negative region's row dot products, viewed as a vector, read at row r. -/
theorem rowDots3_cast (a b : S100000x64.Idx → EReal) (h : Cert.KernelIdeal.S100000x1.ShapeCasts Cert.KernelIdeal.S100000) (r : Fin 100000) :
    shapeCast Cert.KernelIdeal.S100000 (Cert.KernelIdeal.Decode3.rowDots a b) h (ix1 r) = ∑ k : Fin 64, a (ix2 r k) * b (ix2 r k) := by
  refine (shapeCast_apply _ h (ix1 r) (ix2 r 0) ?_).trans rfl
  rw [Shape.rowMajor_val_one, Shape.rowMajor_val_two]
  show r.val * 1 + 0 = r.val
  omega

/-- The second layer's bias, viewed as one row, read at column q. -/
theorem row64_cast (b : S64.Idx → EReal) (h : Cert.KernelIdeal.S64.ShapeCasts Cert.KernelIdeal.S1x64) (q : Fin 64) :
    shapeCast Cert.KernelIdeal.S1x64 b h (ix2 0 q) = b (ix1 q) := by
  refine shapeCast_apply _ h (ix2 0 q) (ix1 q) ?_
  rw [Shape.rowMajor_val_one, Shape.rowMajor_val_two]
  show q.val = 0 * 64 + q.val
  omega

/-- The first layer's bias, viewed as one row, read at column q. -/
theorem row128_cast (b : S128.Idx → EReal) (h : Cert.KernelIdeal.S128.ShapeCasts Cert.KernelIdeal.S1x128) (q : Fin 128) :
    shapeCast Cert.KernelIdeal.S1x128 b h (ix2 0 q) = b (ix1 q) := by
  refine shapeCast_apply _ h (ix2 0 q) (ix1 q) ?_
  rw [Shape.rowMajor_val_one, Shape.rowMajor_val_two]
  show q.val = 0 * 128 + q.val
  omega

/-- The first layer's region, fed the reference's neighbour means, the features, the two weights and the bias viewed as
    one row, leaves the reference's hidden features (its relu stage). -/
theorem layer1 (h : Cert.KernelIdeal.S128.ShapeCasts Cert.KernelIdeal.S1x128) :
    Cert.KernelIdeal.Combine0.layer (val_main_v21 (F := Ideal) x0 x1) x0 x4 x5 (shapeCast Cert.KernelIdeal.S1x128 x6 h)
      = val_main_v28 (F := Ideal) x0 x1 x4 x5 x6 := by
  funext i
  obtain ⟨r, j, rfl⟩ : ∃ (r : Fin 100000) (j : Fin 128), i = ix2 r j := ⟨i 0, i 1, eq_ix2 i⟩
  refine Eq.symm ((val_main_v28_apply x0 x1 x4 x5 x6 _).trans ?_)
  rw [val_main_v27_apply, val_main_v24_apply, val_main_v22_apply, val_main_v23_apply, val_main_v26_apply, val_main_v25_apply,
    val_main_call1_v0_apply, val_main_call1_cst_apply, Ideal.ofBits_def, Ideal.ofBits_zero_f32]
  generalize val_main_v21 (F := Ideal) x0 x1 = mn
  unfold Cert.KernelIdeal.Combine0.layer
  show _ = max ((∑ k : Fin 128, mn (ix2 r k) * x4 (ix2 k j) + ∑ k : Fin 128, x0 (ix2 r k) * x5 (ix2 k j))
    + shapeCast Cert.KernelIdeal.S1x128 x6 h (ix2 0 j)) 0
  rw [row128_cast]
  have e1 : ∀ k : Fin 128, lidx_main_v22 (ix2 r j) k = ix2 r k := fun k => funext fun a => Fin.ext (by
    match a with | ⟨0, _⟩ => rfl | ⟨1, _⟩ => rfl)
  have e2 : ∀ k : Fin 128, ridx_main_v22 (ix2 r j) k = ix2 k j := fun k => funext fun a => Fin.ext (by
    match a with | ⟨0, _⟩ => rfl | ⟨1, _⟩ => rfl)
  have e3 : ∀ k : Fin 128, lidx_main_v23 (ix2 r j) k = ix2 r k := fun k => funext fun a => Fin.ext (by
    match a with | ⟨0, _⟩ => rfl | ⟨1, _⟩ => rfl)
  have e4 : ∀ k : Fin 128, ridx_main_v23 (ix2 r j) k = ix2 k j := fun k => funext fun a => Fin.ext (by
    match a with | ⟨0, _⟩ => rfl | ⟨1, _⟩ => rfl)
  have e5 : idx_main_v25 (idx_main_v26 (ix2 r j)) = ix1 j := funext fun a => Fin.ext (by
    match a with | ⟨0, _⟩ => rfl)
  simp only [e1, e2, e3, e4, e5]
  rfl

/-- The second layer's region, fed the reference's second neighbour means, its hidden features, the two weights and the
    bias viewed as one row, leaves the reference's node embeddings. -/
theorem layer2 (h : Cert.KernelIdeal.S64.ShapeCasts Cert.KernelIdeal.S1x64) :
    Cert.KernelIdeal.Combine1.layer (val_main_v46 (F := Ideal) x0 x1 x4 x5 x6) (val_main_v28 (F := Ideal) x0 x1 x4 x5 x6) x7 x8
        (shapeCast Cert.KernelIdeal.S1x64 x9 h)
      = val_main_v52 (F := Ideal) x0 x1 x4 x5 x6 x7 x8 x9 := by
  funext i
  obtain ⟨r, j, rfl⟩ : ∃ (r : Fin 100000) (j : Fin 64), i = ix2 r j := ⟨i 0, i 1, eq_ix2 i⟩
  refine Eq.symm ((val_main_v52_apply x0 x1 x4 x5 x6 x7 x8 x9 _).trans ?_)
  rw [val_main_v49_apply, val_main_v47_apply, val_main_v48_apply, val_main_v51_apply, val_main_v50_apply]
  generalize val_main_v46 (F := Ideal) x0 x1 x4 x5 x6 = mn
  generalize val_main_v28 (F := Ideal) x0 x1 x4 x5 x6 = hd
  unfold Cert.KernelIdeal.Combine1.layer
  show _ = (∑ k : Fin 128, mn (ix2 r k) * x7 (ix2 k j) + ∑ k : Fin 128, hd (ix2 r k) * x8 (ix2 k j))
    + shapeCast Cert.KernelIdeal.S1x64 x9 h (ix2 0 j)
  rw [row64_cast]
  have e1 : ∀ k : Fin 128, lidx_main_v47 (ix2 r j) k = ix2 r k := fun k => funext fun a => Fin.ext (by
    match a with | ⟨0, _⟩ => rfl | ⟨1, _⟩ => rfl)
  have e2 : ∀ k : Fin 128, ridx_main_v47 (ix2 r j) k = ix2 k j := fun k => funext fun a => Fin.ext (by
    match a with | ⟨0, _⟩ => rfl | ⟨1, _⟩ => rfl)
  have e3 : ∀ k : Fin 128, lidx_main_v48 (ix2 r j) k = ix2 r k := fun k => funext fun a => Fin.ext (by
    match a with | ⟨0, _⟩ => rfl | ⟨1, _⟩ => rfl)
  have e4 : ∀ k : Fin 128, ridx_main_v48 (ix2 r j) k = ix2 k j := fun k => funext fun a => Fin.ext (by
    match a with | ⟨0, _⟩ => rfl | ⟨1, _⟩ => rfl)
  have e5 : idx_main_v50 (idx_main_v51 (ix2 r j)) = ix1 j := funext fun a => Fin.ext (by
    match a with | ⟨0, _⟩ => rfl)
  simp only [e1, e2, e3, e4, e5]
  rfl

/-- The positive edges' decode region, fed the reference's two gathered endpoint arrays, leaves (viewed as a vector) the
    reference's positive scores. -/
theorem dec_pos (h : Cert.KernelIdeal.S100000x1.ShapeCasts Cert.KernelIdeal.S100000) :
    shapeCast Cert.KernelIdeal.S100000
        (Cert.KernelIdeal.Decode2.rowDots (val_main_v61 (F := Ideal) x0 x1 x2 x4 x5 x6 x7 x8 x9) (val_main_v70 (F := Ideal) x0 x1 x2 x4 x5 x6 x7 x8 x9)) h
      = val_main_v72 (F := Ideal) x0 x1 x2 x4 x5 x6 x7 x8 x9 := by
  funext i
  obtain ⟨r, rfl⟩ : ∃ r : Fin 100000, i = ix1 r := ⟨i 0, eq_ix1 i⟩
  refine (rowDots2_cast _ _ h r).trans (Eq.symm ((val_main_v72_apply x0 x1 x2 x4 x5 x6 x7 x8 x9 (ix1 r)).trans ?_))
  rw [val_main_cst_14_apply, Ideal.ofBits_def, Ideal.ofBits_zero_f32, zero_add]
  refine Finset.sum_congr rfl fun k _ => ?_
  refine (val_main_v71_apply x0 x1 x2 x4 x5 x6 x7 x8 x9 _).trans ?_
  generalize val_main_v61 (F := Ideal) x0 x1 x2 x4 x5 x6 x7 x8 x9 = a
  generalize val_main_v70 (F := Ideal) x0 x1 x2 x4 x5 x6 x7 x8 x9 = b
  have e : idx_main_v72 (ix1 r) k = ix2 r k := funext fun d => Fin.ext (by match d with | ⟨0, _⟩ => rfl | ⟨1, _⟩ => rfl)
  rw [e]
  rfl

/-- The negative edges' decode region likewise. -/
theorem dec_neg (h : Cert.KernelIdeal.S100000x1.ShapeCasts Cert.KernelIdeal.S100000) :
    shapeCast Cert.KernelIdeal.S100000
        (Cert.KernelIdeal.Decode3.rowDots (val_main_v81 (F := Ideal) x0 x1 x3 x4 x5 x6 x7 x8 x9) (val_main_v90 (F := Ideal) x0 x1 x3 x4 x5 x6 x7 x8 x9)) h
      = val_main_v92 (F := Ideal) x0 x1 x3 x4 x5 x6 x7 x8 x9 := by
  funext i
  obtain ⟨r, rfl⟩ : ∃ r : Fin 100000, i = ix1 r := ⟨i 0, eq_ix1 i⟩
  refine (rowDots3_cast _ _ h r).trans (Eq.symm ((val_main_v92_apply x0 x1 x3 x4 x5 x6 x7 x8 x9 (ix1 r)).trans ?_))
  rw [val_main_cst_19_apply, Ideal.ofBits_def, Ideal.ofBits_zero_f32, zero_add]
  refine Finset.sum_congr rfl fun k _ => ?_
  refine (val_main_v91_apply x0 x1 x3 x4 x5 x6 x7 x8 x9 _).trans ?_
  generalize val_main_v81 (F := Ideal) x0 x1 x3 x4 x5 x6 x7 x8 x9 = a
  generalize val_main_v90 (F := Ideal) x0 x1 x3 x4 x5 x6 x7 x8 x9 = b
  have e : idx_main_v92 (ix1 r) k = ix2 r k := funext fun d => Fin.ext (by match d with | ⟨0, _⟩ => rfl | ⟨1, _⟩ => rfl)
  rw [e]
  rfl

end Cert.Bridge

end
-- ==== Proof.WalkC.lean ====
/-
  The kernel's buffers followed from its first region to its return, against the reference's stages.
  Region 0 leaves the reference's hidden features (its relu stage): it is entered with the reference's first neighbour
  means, the features, the two weights and the bias, and its whole-array function of those is that stage. The host stretch
  after it forms the second neighbour means of what region 0 left, with the source and destination rows and the clipped
  degrees the first stretch computed; region 1 then leaves the reference's node embeddings. The next stretch gathers
  the endpoint rows of the positive and of the negative edges; regions 2 and 3 leave, row by row, the dot products of
  those, and the reshapes after them are the reference's two score vectors. No region and no stretch writes a buffer
  that a later one reads other than the one it is meant to produce: the facts "kept" say which buffer is read back where.
-/
import proofs.«146579_j69234872812250_1_alg».proof.Proof.Gen.KernelIdeal.Frame
import proofs.«146579_j69234872812250_1_alg».proof.Proof.WalkA
import proofs.«146579_j69234872812250_1_alg».proof.Proof.WalkB
import proofs.«146579_j69234872812250_1_alg».proof.Proof.Combine0
import proofs.«146579_j69234872812250_1_alg».proof.Proof.Combine1
import proofs.«146579_j69234872812250_1_alg».proof.Proof.Decode2
import proofs.«146579_j69234872812250_1_alg».proof.Proof.Decode3
import proofs.«146579_j69234872812250_1_alg».proof.Proof.RefBridge

set_option maxRecDepth 16384

noncomputable section

namespace Cert.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

open Cert.ReferenceIdeal.Read

/-! ## Region 0 and the stretch after it -/

theorem W4_v23 (c : Dev nD) : W4 m ρ c (Proc.devRef .tc main_v23) = val_main_v28 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W4_arr m ρ c 5).trans ?_
  refine (Cert.KernelIdeal.Combine0.final (V3 m ρ) c).trans ?_
  show Cert.KernelIdeal.Combine0.layer (W3 m ρ c (Proc.devRef .tc main_v21)) (W3 m ρ c (Proc.devRef .tc main_arg0)) (W3 m ρ c (Proc.devRef .tc main_arg4)) (W3 m ρ c (Proc.devRef .tc main_arg5)) (W3 m ρ c (Proc.devRef .tc main_v22)) = _
  rw [W3_v21, W3_arg0, W3_arg4, W3_arg5, W3_v22, mean1_eq]
  exact Cert.Bridge.layer1 _ _ _ _ _ _

theorem W4_arg2 (c : Dev nD) : W4 m ρ c (Proc.devRef .tc main_arg2) = m ((c : Thread nD τ).loc main_arg2) :=
  (W4_of_ne m ρ c main_arg2 (by decide)).trans (W3_arg2 m ρ c)

theorem W4_arg3 (c : Dev nD) : W4 m ρ c (Proc.devRef .tc main_arg3) = m ((c : Thread nD τ).loc main_arg3) :=
  (W4_of_ne m ρ c main_arg3 (by decide)).trans (W3_arg3 m ρ c)

theorem W4_arg7 (c : Dev nD) : W4 m ρ c (Proc.devRef .tc main_arg7) = m ((c : Thread nD τ).loc main_arg7) :=
  (W4_of_ne m ρ c main_arg7 (by decide)).trans (W3_arg7 m ρ c)

theorem W4_arg8 (c : Dev nD) : W4 m ρ c (Proc.devRef .tc main_arg8) = m ((c : Thread nD τ).loc main_arg8) :=
  (W4_of_ne m ρ c main_arg8 (by decide)).trans (W3_arg8 m ρ c)

theorem W4_arg9 (c : Dev nD) : W4 m ρ c (Proc.devRef .tc main_arg9) = m ((c : Thread nD τ).loc main_arg9) :=
  (W4_of_ne m ρ c main_arg9 (by decide)).trans (W3_arg9 m ρ c)

theorem W5_v36 (c : Dev nD) : W5 m ρ c (Proc.devRef .tc main_v36) = val_main_v46 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  have h : W5 m ρ c (Proc.devRef .tc main_v36)
      = meanOf (W4 m ρ c (Proc.devRef .tc main_v23)) (W4 m ρ c (Proc.devRef .tc main_v1)) (W4 m ρ c (Proc.devRef .tc main_v3)) (W4 m ρ c (Proc.devRef .tc main_v8)) := by
    show StableHlo.after hostOps1 (W4 m ρ c) (Proc.devRef .tc main_v36) = _
    after_results_simp <;> rfl
  rw [h, W4_v23, W4_of_ne m ρ c main_v1 (by decide), W4_of_ne m ρ c main_v3 (by decide), W4_of_ne m ρ c main_v8 (by decide),
    W3_v1, W3_v3, W3_v8]
  exact mean2_eq _ _ _ _ _

theorem W5_v37 (c : Dev nD) : W5 m ρ c (Proc.devRef .tc main_v37) = shapeCast S1x64 (m ((c : Thread nD τ).loc main_arg9)) shapeCasts_S64_S1x64 := by
  have h : W5 m ρ c (Proc.devRef .tc main_v37) = shapeCast S1x64 (W4 m ρ c (Proc.devRef .tc main_arg9)) shapeCasts_S64_S1x64 := by
    show StableHlo.after hostOps1 (W4 m ρ c) (Proc.devRef .tc main_v37) = _
    after_results_simp <;> rfl
  rw [h, W4_arg9]

theorem W5_v23 (c : Dev nD) : W5 m ρ c (Proc.devRef .tc main_v23) = val_main_v28 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  have h : W5 m ρ c (Proc.devRef .tc main_v23) = W4 m ρ c (Proc.devRef .tc main_v23) := by
    show StableHlo.after hostOps1 (W4 m ρ c) (Proc.devRef .tc main_v23) = _
    after_results_simp <;> rfl
  rw [h, W4_v23]

theorem W5_arg2 (c : Dev nD) : W5 m ρ c (Proc.devRef .tc main_arg2) = m ((c : Thread nD τ).loc main_arg2) := by
  have h : W5 m ρ c (Proc.devRef .tc main_arg2) = W4 m ρ c (Proc.devRef .tc main_arg2) := by
    show StableHlo.after hostOps1 (W4 m ρ c) (Proc.devRef .tc main_arg2) = _
    after_results_simp <;> rfl
  rw [h, W4_arg2]

theorem W5_arg3 (c : Dev nD) : W5 m ρ c (Proc.devRef .tc main_arg3) = m ((c : Thread nD τ).loc main_arg3) := by
  have h : W5 m ρ c (Proc.devRef .tc main_arg3) = W4 m ρ c (Proc.devRef .tc main_arg3) := by
    show StableHlo.after hostOps1 (W4 m ρ c) (Proc.devRef .tc main_arg3) = _
    after_results_simp <;> rfl
  rw [h, W4_arg3]

theorem W5_arg7 (c : Dev nD) : W5 m ρ c (Proc.devRef .tc main_arg7) = m ((c : Thread nD τ).loc main_arg7) := by
  have h : W5 m ρ c (Proc.devRef .tc main_arg7) = W4 m ρ c (Proc.devRef .tc main_arg7) := by
    show StableHlo.after hostOps1 (W4 m ρ c) (Proc.devRef .tc main_arg7) = _
    after_results_simp <;> rfl
  rw [h, W4_arg7]

theorem W5_arg8 (c : Dev nD) : W5 m ρ c (Proc.devRef .tc main_arg8) = m ((c : Thread nD τ).loc main_arg8) := by
  have h : W5 m ρ c (Proc.devRef .tc main_arg8) = W4 m ρ c (Proc.devRef .tc main_arg8) := by
    show StableHlo.after hostOps1 (W4 m ρ c) (Proc.devRef .tc main_arg8) = _
    after_results_simp <;> rfl
  rw [h, W4_arg8]

/-! ## Region 1 and the stretch after it -/

theorem W6_v38 (c : Dev nD) : W6 m ρ c (Proc.devRef .tc main_v38) = val_main_v52 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 5).trans ?_
  refine (Cert.KernelIdeal.Combine1.final (V5 m ρ) c).trans ?_
  show Cert.KernelIdeal.Combine1.layer (W5 m ρ c (Proc.devRef .tc main_v36)) (W5 m ρ c (Proc.devRef .tc main_v23)) (W5 m ρ c (Proc.devRef .tc main_arg7)) (W5 m ρ c (Proc.devRef .tc main_arg8)) (W5 m ρ c (Proc.devRef .tc main_v37)) = _
  rw [W5_v36, W5_v23, W5_arg7, W5_arg8, W5_v37]
  exact Cert.Bridge.layer2 _ _ _ _ _ _ _ _ _

theorem W6_arg2 (c : Dev nD) : W6 m ρ c (Proc.devRef .tc main_arg2) = m ((c : Thread nD τ).loc main_arg2) :=
  (W6_of_ne m ρ c main_arg2 (by decide)).trans (W5_arg2 m ρ c)

theorem W6_arg3 (c : Dev nD) : W6 m ρ c (Proc.devRef .tc main_arg3) = m ((c : Thread nD τ).loc main_arg3) :=
  (W6_of_ne m ρ c main_arg3 (by decide)).trans (W5_arg3 m ρ c)

theorem W7_v53 (c : Dev nD) : W7 m ρ c (Proc.devRef .tc main_v53) = val_main_v61 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W7 m ρ c (Proc.devRef .tc main_v53) = endpoints (W6 m ρ c (Proc.devRef .tc main_v38)) (row0Of (W6 m ρ c (Proc.devRef .tc main_arg2))) := by
    show StableHlo.after hostOps2 (W6 m ρ c) (Proc.devRef .tc main_v53) = _
    after_results_simp <;> rfl
  rw [h, W6_v38, W6_arg2]
  exact pos0_eq _ _ _ _ _ _ _ _ _

theorem W7_v60 (c : Dev nD) : W7 m ρ c (Proc.devRef .tc main_v60) = val_main_v70 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W7 m ρ c (Proc.devRef .tc main_v60) = endpoints (W6 m ρ c (Proc.devRef .tc main_v38)) (row1Of (W6 m ρ c (Proc.devRef .tc main_arg2))) := by
    show StableHlo.after hostOps2 (W6 m ρ c) (Proc.devRef .tc main_v60) = _
    after_results_simp <;> rfl
  rw [h, W6_v38, W6_arg2]
  exact pos1_eq _ _ _ _ _ _ _ _ _

theorem W7_v67 (c : Dev nD) : W7 m ρ c (Proc.devRef .tc main_v67) = val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W7 m ρ c (Proc.devRef .tc main_v67) = endpoints (W6 m ρ c (Proc.devRef .tc main_v38)) (row0Of (W6 m ρ c (Proc.devRef .tc main_arg3))) := by
    show StableHlo.after hostOps2 (W6 m ρ c) (Proc.devRef .tc main_v67) = _
    after_results_simp <;> rfl
  rw [h, W6_v38, W6_arg3]
  exact neg0_eq _ _ _ _ _ _ _ _ _

theorem W7_v74 (c : Dev nD) : W7 m ρ c (Proc.devRef .tc main_v74) = val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W7 m ρ c (Proc.devRef .tc main_v74) = endpoints (W6 m ρ c (Proc.devRef .tc main_v38)) (row1Of (W6 m ρ c (Proc.devRef .tc main_arg3))) := by
    show StableHlo.after hostOps2 (W6 m ρ c) (Proc.devRef .tc main_v74) = _
    after_results_simp <;> rfl
  rw [h, W6_v38, W6_arg3]
  exact neg1_eq _ _ _ _ _ _ _ _ _

/-! ## The two decode regions and the reshapes after them -/

theorem W8_v75 (c : Dev nD) : W8 m ρ c (Proc.devRef .tc main_v75)
    = Cert.KernelIdeal.Decode2.rowDots (val_main_v61 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (val_main_v70 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W8_arr m ρ c 2).trans ?_
  refine (Cert.KernelIdeal.Decode2.final (V7 m ρ) c).trans ?_
  show Cert.KernelIdeal.Decode2.rowDots (W7 m ρ c (Proc.devRef .tc main_v53)) (W7 m ρ c (Proc.devRef .tc main_v60)) = _
  rw [W7_v53, W7_v60]

theorem W8_v67 (c : Dev nD) : W8 m ρ c (Proc.devRef .tc main_v67) = val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W8_of_ne m ρ c main_v67 (by decide)).trans (W7_v67 m ρ c)

theorem W8_v74 (c : Dev nD) : W8 m ρ c (Proc.devRef .tc main_v74) = val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W8_of_ne m ρ c main_v74 (by decide)).trans (W7_v74 m ρ c)

theorem W9_v76 (c : Dev nD) : W9 m ρ c (Proc.devRef .tc main_v76) = val_main_v72 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W9 m ρ c (Proc.devRef .tc main_v76) = shapeCast S100000 (W8 m ρ c (Proc.devRef .tc main_v75)) shapeCasts_S100000x1_S100000 := by
    show StableHlo.after hostOps3 (W8 m ρ c) (Proc.devRef .tc main_v76) = _
    after_results_simp <;> rfl
  rw [h, W8_v75]
  exact Cert.Bridge.dec_pos _ _ _ _ _ _ _ _ _ _

theorem W9_v67 (c : Dev nD) : W9 m ρ c (Proc.devRef .tc main_v67) = val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W9 m ρ c (Proc.devRef .tc main_v67) = W8 m ρ c (Proc.devRef .tc main_v67) := by
    show StableHlo.after hostOps3 (W8 m ρ c) (Proc.devRef .tc main_v67) = _
    after_results_simp <;> rfl
  rw [h, W8_v67]

theorem W9_v74 (c : Dev nD) : W9 m ρ c (Proc.devRef .tc main_v74) = val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W9 m ρ c (Proc.devRef .tc main_v74) = W8 m ρ c (Proc.devRef .tc main_v74) := by
    show StableHlo.after hostOps3 (W8 m ρ c) (Proc.devRef .tc main_v74) = _
    after_results_simp <;> rfl
  rw [h, W8_v74]

theorem W10_v77 (c : Dev nD) : W10 m ρ c (Proc.devRef .tc main_v77)
    = Cert.KernelIdeal.Decode3.rowDots (val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W10_arr m ρ c 2).trans ?_
  refine (Cert.KernelIdeal.Decode3.final (V9 m ρ) c).trans ?_
  show Cert.KernelIdeal.Decode3.rowDots (W9 m ρ c (Proc.devRef .tc main_v67)) (W9 m ρ c (Proc.devRef .tc main_v74)) = _
  rw [W9_v67, W9_v74]

theorem W10_v76 (c : Dev nD) : W10 m ρ c (Proc.devRef .tc main_v76) = val_main_v72 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W10_of_ne m ρ c main_v76 (by decide)).trans (W9_v76 m ρ c)

/-- The positive scores at the return: the reference's. -/
theorem out_pos (c : Dev nD) : W11 m ρ c (Proc.devRef .tc main_v76) = val_main_v72 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W11 m ρ c (Proc.devRef .tc main_v76) = W10 m ρ c (Proc.devRef .tc main_v76) := by
    show StableHlo.after hostOps4 (W10 m ρ c) (Proc.devRef .tc main_v76) = _
    after_results_simp <;> rfl
  rw [h, W10_v76]

/-- The negative scores at the return: the reference's. -/
theorem out_neg (c : Dev nD) : W11 m ρ c (Proc.devRef .tc main_v78) = val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W11 m ρ c (Proc.devRef .tc main_v78) = shapeCast S100000 (W10 m ρ c (Proc.devRef .tc main_v77)) shapeCasts_S100000x1_S100000 := by
    show StableHlo.after hostOps4 (W10 m ρ c) (Proc.devRef .tc main_v78) = _
    after_results_simp <;> rfl
  rw [h, W10_v77]
  exact Cert.Bridge.dec_neg _ _ _ _ _ _ _ _ _ _

end Cert.Walk

end
-- ==== Proof.lean ====
/-
  A two-layer GraphSAGE encoder with a dot-product link decoder, as four kernel regions among host stretches, against its
  plain reference. Both programs gather the source rows of every edge, scatter-add them at the destination rows and divide
  by the clipped in-degree (on the host, by the same operations); the kernel then forms each layer's
      mean · Wl + x · Wr + b          (the first layer clamped below at 0)
  block of 2000 rows by block in a region, where the reference uses two host matrix products and a broadcast, and scores
  every edge by the dot product of its two gathered endpoint rows in a region, where the reference multiplies entrywise and
  sums over axis 1. Over the extended reals a region's matrix product into a zero accumulator and the host's are the same
  sum over the contracted axis, the lane sum and the host's sum the same sum over the reduced axis, and a change of float
  format is the identity: so every stage of the kernel's program holds exactly the reference's stage, entry by entry, with
  no law of the extended reals used beyond 0 + s = s, and no use of the inputs' finiteness.
  The frames are the generated ones (the reference's is its generated run with the results dropped); the ideal pass rewrote
  nothing, so there is nothing to preserve; the two results are read off the kernel's run at its last boundary and walked
  back through the four regions and the host stretches to the reference's stages.
-/
import proofs.«146579_j69234872812250_1_alg».proof.Defs
import proofs.«146579_j69234872812250_1_alg».proof.Proof.Gen.Kernel
import proofs.«146579_j69234872812250_1_alg».proof.Proof.Gen.Kernel.Skeleton
import proofs.«146579_j69234872812250_1_alg».proof.Proof.Gen.Kernel.Launch
import proofs.«146579_j69234872812250_1_alg».proof.Proof.Gen.Kernel.Points
import proofs.«146579_j69234872812250_1_alg».proof.Proof.Gen.Kernel.Frame
import proofs.«146579_j69234872812250_1_alg».proof.Proof.Gen.KernelIdeal
import proofs.«146579_j69234872812250_1_alg».proof.Proof.Gen.KernelIdeal.Skeleton
import proofs.«146579_j69234872812250_1_alg».proof.Proof.Gen.KernelIdeal.Launch
import proofs.«146579_j69234872812250_1_alg».proof.Proof.Gen.KernelIdeal.Points
import proofs.«146579_j69234872812250_1_alg».proof.Proof.Gen.KernelIdeal.Frame
import proofs.«146579_j69234872812250_1_alg».proof.Proof.Gen.ReferenceIdeal
import proofs.«146579_j69234872812250_1_alg».proof.Proof.Gen.ReferenceIdeal.Run
import proofs.«146579_j69234872812250_1_alg».proof.Proof.Gen.ReferenceIdeal.Read
import proofs.«146579_j69234872812250_1_alg».proof.Proof.Gen.Pre_finite_inputs
import proofs.«146579_j69234872812250_1_alg».proof.Proof.KRun
import proofs.«146579_j69234872812250_1_alg».proof.Proof.WalkC
import Idealize.ShloMosaic.Adequacy
import Idealize.ShloMosaic.Init

noncomputable section

namespace Cert.Proof

open Idealize.ShloMosaic Idealize.SL.Sem

/-- The reference runs and keeps its arguments: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two score vectors of the (shared) arguments: the kernel's by the walk through
    its regions, the reference's by its generated run, read as its last stages. -/
theorem algebraic : Cert.algebraic_KernelIdeal_ReferenceIdeal := by
  intro m ρ m' ρ' _ hagree
  refine ⟨fun c => Cert.ReferenceIdeal.Read.val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Walk.out_pos m ρ c), (h c).2.1.trans (Cert.Walk.out_neg m ρ c), (h c).2.2⟩)
      (Cert.KernelIdeal.GenRun.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9⟩ := hagree c
      rw [Cert.ReferenceIdeal.Read.val_main_v72_eq, a0, a1, a2, a4, a5, a6, a7, a8, a9]
    · obtain ⟨a0, a1, a2, a3, a4, a5, a6, a7, a8, a9⟩ := hagree c
      rw [Cert.ReferenceIdeal.Read.val_main_v92_eq, a0, a1, a3, a4, a5, a6, a7, a8, a9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
